-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S4000x128 : Shape := ⟨2, ![4000, 128]⟩
abbrev S1x128 : Shape := ⟨2, ![1, 128]⟩

abbrev nBuf : Space → Nat
  | .hbm => 37
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S100000x128, .f32⟩
  | .hbm, ⟨20, _⟩ => ⟨S600000x1, .i32⟩
  | .hbm, ⟨21, _⟩ => ⟨S100000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S100000, .f32⟩
  | .hbm, ⟨26, _⟩ => ⟨S600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S128x128, .f32⟩
  | .hbm, ⟨36, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S4000x128 : S1x128.Broadcasts S4000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S100000x128, .f32⟩
  | .hbm, ⟨20, _⟩ => ⟨S600000x1, .i32⟩
  | .hbm, ⟨21, _⟩ => ⟨S100000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S100000, .f32⟩
  | .hbm, ⟨26, _⟩ => ⟨S600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageSpec.lean ====
/-
  The specification both programs are read against: one SAGEConv layer with mean aggregation, as ONE function of
  five arrays, index by index, over the extended reals.

  With `A` the mean-aggregated neighbour features (node `r`'s row is the sum of its in-neighbours' feature rows over
  `max(deg r, 1)`), `X` the node features, `Wl` and `Wr` the two weight matrices ALREADY TRANSPOSED (so that a
  row of `A` or `X` meets a column of them), and `b` the bias:

      layer A X Wl Wr b (r, c) = ( Σ_k A(r,k) · Wl(k,c)  +  Σ_k X(r,k) · Wr(k,c) )  +  b(c).

  The kernel adds the two products first and the bias last; the reference adds the bias to the neighbour product and
  the self product last. Addition on the extended reals is a commutative monoid (with `⊥ + ⊤ = ⊥`), so the two
  groupings are equal at EVERY value, infinities included: no finiteness is needed (`regroup`).
-/
import Idealize.ShloMosaic.PureOps.Ideal
import Idealize.ShloMosaic.Lib.ValueIdx

noncomputable section

namespace Cert.Sage

open Idealize.ShloMosaic Idealize.ShloMosaic.ValueIdx

/-- Node-major arrays: 100000 nodes, 128 features. -/
abbrev SNodes : Shape := ⟨2, ![100000, 128]⟩
/-- A 128 × 128 weight matrix. -/
abbrev SWeights : Shape := ⟨2, ![128, 128]⟩
/-- The bias, one entry per output feature. -/
abbrev SBias : Shape := ⟨1, ![128]⟩

/-- One SAGEConv layer at output index `(r, c)`: the neighbour product plus the self product, then the bias. -/
def layer (A X : SNodes.Idx → EReal) (Wl Wr : SWeights.Idx → EReal) (b : SBias.Idx → EReal) : SNodes.Idx → EReal :=
  fun i => (∑ k : Fin 128, A (ix2 (i 0) k) * Wl (ix2 k (i 1)) + ∑ k : Fin 128, X (ix2 (i 0) k) * Wr (ix2 k (i 1)))
    + b (ix1 (i 1))

/-- The reference's grouping `(neighbour + bias) + self` is the kernel's `(neighbour + self) + bias`: addition of
    extended reals is commutative and associative at every value. -/
theorem regroup (n s b : EReal) : (n + b) + s = (n + s) + b := add_right_comm n b s

end Cert.Sage

end
-- ==== Proof.RefLayer.lean ====
/-
  The reference's result is the layer.

  The reference ends with three host operations over whole arrays: the product of the aggregated features with the
  transposed left weights, plus the bias repeated over the rows, plus the product of the node features with the
  transposed right weights. Read at an index `(r, c)` each product is a sum over the contracted coordinate `k` of a
  row entry `(r, k)` times a column entry `(k, c)`, and the repeated bias is the bias at `c`; so the result is
  `(neighbour + bias) + self`, which is the layer's `(neighbour + self) + bias` by commutativity and associativity of
  addition on the extended reals.
-/
import proofs.«133858_j87703232184758_1_alg».proof.Proof.Gen.ReferenceIdeal.Read
import proofs.«133858_j87703232184758_1_alg».proof.Proof.SageSpec

noncomputable section

namespace Cert.ReferenceIdeal.Layer

open Cert.ReferenceIdeal Cert.ReferenceIdeal.Gen Cert.ReferenceIdeal.Read Idealize.ShloMosaic Idealize.ShloMosaic.ValueIdx

/-! ## Which entries the three last operations read -/

/-- The neighbour product at `(r, c)`, step `k`, reads the aggregated features at `(r, k)` -/
theorem nbr_row (i : S100000x128.Idx) (k : Fin 128) : lidx_main_v24 i k = ix2 (i 0) k :=
  funext fun a => Fin.ext (by match a with | ⟨0, _⟩ => rfl | ⟨1, _⟩ => rfl)
/-- and the transposed left weights at `(k, c)`. -/
theorem nbr_col (i : S100000x128.Idx) (k : Fin 128) : ridx_main_v24 i k = ix2 k (i 1) :=
  funext fun a => Fin.ext (by match a with | ⟨0, _⟩ => rfl | ⟨1, _⟩ => rfl)
/-- The self product at `(r, c)`, step `k`, reads the node features at `(r, k)` -/
theorem self_row (i : S100000x128.Idx) (k : Fin 128) : lidx_main_v29 i k = ix2 (i 0) k :=
  funext fun a => Fin.ext (by match a with | ⟨0, _⟩ => rfl | ⟨1, _⟩ => rfl)
/-- and the transposed right weights at `(k, c)`. -/
theorem self_col (i : S100000x128.Idx) (k : Fin 128) : ridx_main_v29 i k = ix2 k (i 1) :=
  funext fun a => Fin.ext (by match a with | ⟨0, _⟩ => rfl | ⟨1, _⟩ => rfl)
/-- The bias, laid out as a row and repeated over the rows, reads at `(r, c)` the bias at `c`. -/
theorem bias_col (i : S100000x128.Idx) : idx_main_v25 (idx_main_v26 i) = ix1 (i 1) :=
  funext fun a => Fin.ext (by match a with | ⟨0, _⟩ => rfl)

/-! ## The result -/

/-- The reference's result, as a function of the five arguments, is the layer of the aggregated features (its own
    earlier stage), the node features, the two transposed weight matrices (its own stages) and the bias. -/
theorem result_is_layer (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4
      = Cert.Sage.layer (val_main_v22 (F := Ideal) x0 x1) x0 (val_main_v23 (F := Ideal) x2) (val_main_v28 (F := Ideal) x4) x3 := by
  funext i
  rw [val_main_v30_apply, val_main_v27_apply, val_main_v24_apply, val_main_v26_apply, val_main_v25_apply, val_main_v29_apply]
  simp only [nbr_row, nbr_col, self_row, self_col, bias_col]
  exact Cert.Sage.regroup _ _ _

end Cert.ReferenceIdeal.Layer

end
-- ==== Proof.KernelBlock.lean ====
/-
  What the kernel body stores into one output block, read at an index.

  The body loads a 4000 × 128 block `a` of aggregated features, the matching block `x` of node features, the two
  transposed 128 × 128 weight matrices `wl`, `wr` and the bias `b`, and stores
  `(a ·ₘ wl + x ·ₘ wr) + b` broadcast over the rows, where `·ₘ` is a matrix product into a zero accumulator after the
  operands pass through bf16. On the extended reals a change of float format is the identity and a product into a
  zero accumulator is the plain sum over the contracted axis, so entry `(p, q)` of the stored block is
      ( Σ_k a(p,k) · wl(k,q)  +  Σ_k x(p,k) · wr(k,q) )  +  b(q).
  The two layout steps on the bias (a 128-vector seen as a 1 × 128 row, then repeated over the 4000 rows) read the
  bias at the column coordinate.
-/
import proofs.«133858_j87703232184758_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-! ## The matrix product of a block of rows with a weight matrix -/

theorem lhs_rows_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_rows_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_cols_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_cols_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Rows times a weight matrix into a zero accumulator: entry `(p, q)` is the sum over `k` of row `p` at `k` times
    column `q` at `k`. -/
theorem rows_times_weights {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_rows_0 _ _
    | ⟨1, _⟩ => exact (lhs_rows_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_cols_0 _ _).trans hk
    | ⟨1, _⟩ => exact rhs_cols_1 _ _)
  rw [el, er]

/-! ## The bias, laid out as a row and repeated over the rows -/

/-- The bias seen as a 1 × 128 row and repeated over the 4000 rows reads, at `(p, q)`, the bias at `q`. -/
theorem bias_rows {α : Type} (b : S128.Idx → α) (p : Fin 4000) (q : Fin 128) :
    broadcastTo S4000x128 (shapeCast S1x128 (shapeCast S1x128 b shapeCasts_S128_S1x128) shapeCasts_S1x128_S1x128) broadcasts_S1x128_S4000x128 (ix2 p q)
      = b (ix1 q) := by
  rw [shapeCast_self]
  refine (broadcastTo_apply _ broadcasts_S1x128_S4000x128 (ix2 p q) (ix2 (0 : Fin 1) q) (fun a => ?_)).trans ?_
  · match a with
    | ⟨0, _⟩ => rfl
    | ⟨1, _⟩ => rfl
  · exact shapeCast_apply b shapeCasts_S128_S1x128 (ix2 (0 : Fin 1) q) (ix1 q)
      (by rewrite [Shape.rowMajor_val_two, Shape.rowMajor_val_one]; show q.val = 0 * 128 + q.val; omega)

/-! ## The stored block at an index -/

/-- Entry `(p, q)` of the block the body stores: the neighbour product plus the self product, then the bias. -/
theorem stored_apply (a x : Vec Ideal S4000x128 .f32) (wl wr : Vec Ideal S128x128 .f32) (b : Vec Ideal S128 .f32)
    (p : Fin 4000) (q : Fin 128) :
    k0_pay1 (F := Ideal) a x wl wr b (ix2 p q)
      = (∑ k : Fin 128, a (ix2 p k) * wl (ix2 k q) + ∑ k : Fin 128, x (ix2 p k) * wr (ix2 k q)) + b (ix1 q) := by
  unfold k0_pay1
  rw [addf_apply, addf_apply, bias_rows, rows_times_weights, rows_times_weights]
  simp only [truncf_apply, shapeCast_self]

end Cert.KernelIdeal.BlockValue

end
-- ==== Proof.KernelArray.lean ====
/-
  From the kernel's blocks to its whole result array.

  The grid has 25 points; point `t` stages rows `4000·t … 4000·t + 3999` of the aggregated features and of the node
  features, the two whole (transposed) weight matrices and the whole bias, and writes back rows
  `4000·t … 4000·t + 3999` of the result. So entry `(p, q)` of what point `t` writes back is the layer, of the arrays as
  the region finds them, at row `4000·t + p` and column `q`: the block point `t` writes back is block `t` of ONE
  whole-array function. The 25 blocks cover all 100000 rows (row `r` lies in block `r / 4000`), so after the run the
  result array is that function.
-/
import proofs.«133858_j87703232184758_1_alg».proof.Proof.Gen.KernelIdeal.Value
import proofs.«133858_j87703232184758_1_alg».proof.Proof.KernelBlock
import proofs.«133858_j87703232184758_1_alg».proof.Proof.SageSpec

noncomputable section

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The five arrays the region stages, as it finds them: the aggregated features, -/
abbrev aggAtEntry (c : Dev nD) : S100000x128.Idx → EReal := V m c main_v22
/-- the node features, -/
abbrev featAtEntry (c : Dev nD) : S100000x128.Idx → EReal := V m c main_arg0
/-- the transposed left weights, -/
abbrev leftAtEntry (c : Dev nD) : S128x128.Idx → EReal := V m c main_v23
/-- the transposed right weights, -/
abbrev rightAtEntry (c : Dev nD) : S128x128.Idx → EReal := V m c main_v24
/-- and the bias. -/
abbrev biasAtEntry (c : Dev nD) : S128.Idx → EReal := V m c main_arg3

/-- The layer of the arrays as the region finds them. -/
abbrev layerAtEntry (c : Dev nD) : S100000x128.Idx → EReal :=
  Cert.Sage.layer (aggAtEntry m c) (featAtEntry m c) (leftAtEntry m c) (rightAtEntry m c) (biasAtEntry m c)

/-- The block indices over the grid: the two row-blocked inputs move with the output's row block, every other block
    index is zero, and the output's row block stays below 25. -/
theorem block_indices : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (1 : Fin 2) = 0 ∧ win0_5.index t (0 : Fin 2) ≤ 24 :=
  (by decide +kernel : ∀ t : Fin grid0.N, _)

/-- Every row block is some point's. -/
theorem block_onto : ∀ q0 : Fin 25, ∃ t : Fin cfg0.N, win0_5.index t = ![q0.val, 0] :=
  (by decide +kernel : ∀ q0 : Fin 25, ∃ t : Fin grid0.N, win0_5.index t = ![q0.val, 0])

/-- WHAT POINT `t` WRITES BACK is block `t` of the layer of the arrays as the region finds them. -/
theorem flushed_is_block (c : Dev nD) (t : Fin cfg0.N) :
    (dats m 0 c).flushed 5 t = ((cfg0.win 5).blk t).view.read (Elt Ideal) (layerAtEntry m c) := by
  rw [Value.flushed5]
  unfold out0_5
  rw [View.canon_unit_zero origin2]
  simp only [View.ld_unit_zero (S := S4000x128) origin2, View.ld_unit_zero (S := S128x128) origin2, View.ld_unit_zero (S := S128) origin1]
  obtain ⟨e00, e01, e10, e11, e20, e21, e30, e40, e41, e51, e50⟩ := block_indices t
  funext j
  obtain ⟨p, q, rfl⟩ : ∃ (p : Fin 4000) (q : Fin 128), j = ix2 p q := ⟨j 0, j 1, eq_ix2 j⟩
  show k0_pay1 (F := Ideal) (iblk m c 0 t) (iblk m c 1 t) (iblk m c 2 t) (iblk m c 4 t) (iblk m c 3 t) (ix2 p q)
    = layerAtEntry m c (((cfg0.win 5).blk t).view.emb (ix2 p q))
  refine (BlockValue.stored_apply (iblk m c 0 t) (iblk m c 1 t) (iblk m c 2 t) (iblk m c 4 t) (iblk m c 3 t) p q).trans ?_
  -- where each staged entry sits in its array
  have hA : ∀ k : Fin 128, ((cfg0.win 0).blk t).view.emb (ix2 p k) = ix2 (((cfg0.win 5).blk t).view.emb (ix2 p q) 0) k := fun k => by
    funext a; apply Fin.ext
    match a with
    | ⟨0, _⟩ => show win0_0.index t (0 : Fin 2) * 4000 + 1 * p.val = win0_5.index t (0 : Fin 2) * 4000 + 1 * p.val; omega
    | ⟨1, _⟩ => show win0_0.index t (1 : Fin 2) * 128 + 1 * k.val = k.val; omega
  have hX : ∀ k : Fin 128, ((cfg0.win 1).blk t).view.emb (ix2 p k) = ix2 (((cfg0.win 5).blk t).view.emb (ix2 p q) 0) k := fun k => by
    funext a; apply Fin.ext
    match a with
    | ⟨0, _⟩ => show win0_1.index t (0 : Fin 2) * 4000 + 1 * p.val = win0_5.index t (0 : Fin 2) * 4000 + 1 * p.val; omega
    | ⟨1, _⟩ => show win0_1.index t (1 : Fin 2) * 128 + 1 * k.val = k.val; omega
  have hWl : ∀ k : Fin 128, ((cfg0.win 2).blk t).view.emb (ix2 k q) = ix2 k (((cfg0.win 5).blk t).view.emb (ix2 p q) 1) := fun k => by
    funext a; apply Fin.ext
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  have hWr : ∀ k : Fin 128, ((cfg0.win 4).blk t).view.emb (ix2 k q) = ix2 k (((cfg0.win 5).blk t).view.emb (ix2 p q) 1) := fun k => by
    funext a; apply Fin.ext
    match a with
    | ⟨0, _⟩ => show win0_4.index t (0 : Fin 2) * 128 + 1 * k.val = k.val; omega
    | ⟨1, _⟩ => show win0_4.index t (1 : Fin 2) * 128 + 1 * q.val = win0_5.index t (1 : Fin 2) * 128 + 1 * q.val; omega
  have hb : ((cfg0.win 3).blk t).view.emb (ix1 q) = ix1 (((cfg0.win 5).blk t).view.emb (ix2 p q) 1) := by
    funext a; apply Fin.ext
    match a with
    | ⟨0, _⟩ => show win0_3.index t (0 : Fin 1) * 128 + 1 * q.val = win0_5.index t (1 : Fin 2) * 128 + 1 * q.val; omega
  refine congrArg₂ (· + ·) (congrArg₂ (· + ·) (Finset.sum_congr rfl fun k _ => ?_) (Finset.sum_congr rfl fun k _ => ?_)) ?_
  · exact congrArg₂ (· * ·) (congrArg (aggAtEntry m c) (hA k)) (congrArg (leftAtEntry m c) (hWl k))
  · exact congrArg₂ (· * ·) (congrArg (featAtEntry m c) (hX k)) (congrArg (rightAtEntry m c) (hWr k))
  · exact congrArg (biasAtEntry m c) hb

/-- An index of the result array is in point `t`'s block iff each coordinate is in the block's range on its axis. -/
theorem mem_block (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v25).slice (win0_5.rect t)).set ↔ _
  rw [View.set_slice_whole, Rect.mem_set_unit]
  exact Iff.rfl

/-- Every index of the result array is in some point's block: row `r` is in block `r / 4000`. -/
theorem covered (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := block_onto ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE RESULT ARRAY after the run is the layer of the arrays as the region finds them. -/
theorem final (c : Dev nD) : (dats m 0 c).arrAt 5 cfg0.N = layerAtEntry m c :=
  (dats m 0 c).arrAt_eq_of_cover 5 (layerAtEntry m c) (fun t _ => flushed_is_block m c t) covered

end Cert.KernelIdeal.ArrayValue

end
-- ==== Proof.KernelHead.lean ====
/-
  What the kernel's region finds in the three arrays the host computes before it.

  Before its one region the kernel's program runs, on the host, exactly the reference's first operations: it gathers
  the source nodes' feature rows, scatter-adds them into the destination nodes' rows, counts each node's in-degree the
  same way, and divides each row by `max(degree, 1)` — the mean-aggregated features —; and it transposes the two
  weight matrices. Operation for operation these are the reference's own stages, so the three arrays the region finds
  are the reference's aggregated features and its two transposed weight matrices, as functions of the same arguments.
-/
import proofs.«133858_j87703232184758_1_alg».proof.Proof.Gen.KernelIdeal.Frame
import proofs.«133858_j87703232184758_1_alg».proof.Proof.Gen.ReferenceIdeal.Read
import Idealize.ShloMosaic.Lib.StableHlo.Run

noncomputable section

namespace Cert.KernelIdeal.HostHead

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The region finds, where it stages its first operand, the reference's mean-aggregated features of the node
    features and the edge list. -/
theorem aggregated (c : Dev nD) :
    (V m c main_v22 : S100000x128.Idx → EReal)
      = Cert.ReferenceIdeal.Read.val_main_v22 (F := Ideal) (m ((c : Thread nD τ).loc main_arg0)) (m ((c : Thread nD τ).loc main_arg1)) := by
  dsimp only [V, hostOps0]
  after_results_simp
  rfl

/-- The region finds the left weights transposed, -/
theorem left_weights (c : Dev nD) :
    (V m c main_v23 : S128x128.Idx → EReal)
      = Cert.ReferenceIdeal.Read.val_main_v23 (F := Ideal) (m ((c : Thread nD τ).loc main_arg2)) := by
  dsimp only [V, hostOps0]
  after_results
  rfl

/-- and the right weights transposed. -/
theorem right_weights (c : Dev nD) :
    (V m c main_v24 : S128x128.Idx → EReal)
      = Cert.ReferenceIdeal.Read.val_main_v28 (F := Ideal) (m ((c : Thread nD τ).loc main_arg4)) := by
  dsimp only [V, hostOps0]
  after_results
  rfl

end Cert.KernelIdeal.HostHead

end
-- ==== Proof.KernelLayer.lean ====
/-
  The kernel's run, read: its result array is the layer of the reference's own stages of the arguments.

  After the run the result array is the layer of the arrays as the region finds them (the 25 written-back blocks tile
  it). The region finds the node features and the bias as launched, and in the three host-computed arrays the
  reference's mean-aggregated features and its two transposed weight matrices. So the result is the layer of
  exactly the five arrays the reference's last three operations combine.
-/
import proofs.«133858_j87703232184758_1_alg».proof.Proof.KernelArray
import proofs.«133858_j87703232184758_1_alg».proof.Proof.KernelHead

noncomputable section

namespace Cert.KernelIdeal.LayerValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The layer of the reference's stages of the kernel's arguments: what both programs end holding. -/
abbrev result (c : Dev nD) : S100000x128.Idx → EReal :=
  Cert.Sage.layer
    (Cert.ReferenceIdeal.Read.val_main_v22 (F := Ideal) (m ((c : Thread nD τ).loc main_arg0)) (m ((c : Thread nD τ).loc main_arg1)))
    (m ((c : Thread nD τ).loc main_arg0))
    (Cert.ReferenceIdeal.Read.val_main_v23 (F := Ideal) (m ((c : Thread nD τ).loc main_arg2)))
    (Cert.ReferenceIdeal.Read.val_main_v28 (F := Ideal) (m ((c : Thread nD τ).loc main_arg4)))
    (m ((c : Thread nD τ).loc main_arg3))

/-- The layer of the arrays as the region finds them is the layer of the reference's stages of the arguments. -/
theorem entry_is_result (c : Dev nD) : ArrayValue.layerAtEntry m c = result m c := by
  have hA : ArrayValue.aggAtEntry m c = _ := HostHead.aggregated m c
  have hX : ArrayValue.featAtEntry m c = _ := V_main_arg0 m c
  have hL : ArrayValue.leftAtEntry m c = _ := HostHead.left_weights m c
  have hR : ArrayValue.rightAtEntry m c = _ := HostHead.right_weights m c
  have hb : ArrayValue.biasAtEntry m c = _ := V_main_arg3 m c
  show Cert.Sage.layer (ArrayValue.aggAtEntry m c) (ArrayValue.featAtEntry m c) (ArrayValue.leftAtEntry m c) (ArrayValue.rightAtEntry m c) (ArrayValue.biasAtEntry m c) = _
  rw [hA, hX, hL, hR, hb]

/-- Every weakly fair execution of the kernel's program terminates with its result array at `result` and its
    arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((ArrayValue.final m c).trans (entry_is_result m c)), (h c).2⟩)
    (Cert.KernelIdeal.Value.run_blocks m ρ)

end Cert.KernelIdeal.LayerValue

end
-- ==== Proof.lean ====
/- The proof of `Cert.Claim` (proofs.«133858_j87703232184758_1_alg».proof.Defs): the three frames, `preserves` and `algebraic`.

   The programs. Both compute one SAGEConv layer with mean aggregation over 100000 nodes with 128 features and 600000
   edges. Both first run the same host operations: gather the source nodes' feature rows, scatter-add them into the
   destination nodes' rows, count in-degrees the same way, divide each row by `max(degree, 1)` — the mean-aggregated
   features `A` — and transpose the two 128 × 128 weight matrices. The reference then forms, on whole arrays,
   `(A · Wlᵀ + b) + X · Wrᵀ`. The kernel instead runs one pipelined region over 25 blocks of 4000 rows: each block
   stores `(A_blk · Wlᵀ + X_blk · Wrᵀ) + b`, the operands passing through bf16 on the way into the products.

   Why they agree over the extended reals. There a change of float format is the identity and a matrix product into a
   zero accumulator is the plain sum over the contracted axis, so entry `(p, q)` of the block stored at grid point `t` is
   `(Σ_k A(4000 t + p, k) Wlᵀ(k, q) + Σ_k X(4000 t + p, k) Wrᵀ(k, q)) + b(q)` (Proof/KernelBlock.lean); the 25 blocks
   tile the result array, which therefore is ONE function of the staged arrays, `Cert.Sage.layer` (Proof/SageSpec.lean,
   Proof/KernelArray.lean); the arrays the region stages are the reference's own earlier stages of the same arguments
   (Proof/KernelHead.lean, Proof/KernelLayer.lean). The reference's last three operations, read at an index, give
   `(neighbour + bias) + self` (Proof/RefLayer.lean), the kernel's `(neighbour + self) + bias` regrouped; addition of
   extended reals is commutative and associative at every value, so the precondition's finiteness is never used.

   The frames of the two kernel programs are the generated frame certificates; the reference's frame is its run with
   the result dropped; the ideal pass rewrote nothing, so `preserves` is `True`. -/
import proofs.«133858_j87703232184758_1_alg».proof.Defs
import proofs.«133858_j87703232184758_1_alg».proof.Proof.Gen.Kernel
import proofs.«133858_j87703232184758_1_alg».proof.Proof.Gen.Kernel.Skeleton
import proofs.«133858_j87703232184758_1_alg».proof.Proof.Gen.Kernel.Launch
import proofs.«133858_j87703232184758_1_alg».proof.Proof.Gen.Kernel.Points
import proofs.«133858_j87703232184758_1_alg».proof.Proof.Gen.Kernel.Frame
import proofs.«133858_j87703232184758_1_alg».proof.Proof.Gen.KernelIdeal
import proofs.«133858_j87703232184758_1_alg».proof.Proof.Gen.KernelIdeal.Skeleton
import proofs.«133858_j87703232184758_1_alg».proof.Proof.Gen.KernelIdeal.Launch
import proofs.«133858_j87703232184758_1_alg».proof.Proof.Gen.KernelIdeal.Points
import proofs.«133858_j87703232184758_1_alg».proof.Proof.Gen.KernelIdeal.Frame
import proofs.«133858_j87703232184758_1_alg».proof.Proof.Gen.ReferenceIdeal
import proofs.«133858_j87703232184758_1_alg».proof.Proof.Gen.Pre_finite_inputs
import proofs.«133858_j87703232184758_1_alg».proof.Proof.Gen.KernelIdeal.Value
import proofs.«133858_j87703232184758_1_alg».proof.Proof.Gen.ReferenceIdeal.Run
import proofs.«133858_j87703232184758_1_alg».proof.Proof.Gen.ReferenceIdeal.Read
import proofs.«133858_j87703232184758_1_alg».proof.Proof.RefLayer
import proofs.«133858_j87703232184758_1_alg».proof.Proof.KernelLayer
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the layer of the reference's stages of those
    arguments: the kernel by its blocks (`LayerValue.run`), the reference by its last three operations read at an index
    and regrouped (`Layer.result_is_layer`). -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.Layer.result_is_layer,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
